-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 96
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S800000, .f32⟩
  | .hbm, ⟨84, _⟩ => ⟨S_, .f32⟩
  | .hbm, ⟨85, _⟩ => ⟨S50000, .f32⟩
  | .hbm, ⟨86, _⟩ => ⟨S800000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Lin.lean ====
/-
  The linear step of one GraphSAGE layer, entry by entry, on the extended reals.

  For node features `X` ([50000, 128]), their neighbour means `A` ([50000, 128]), weights `Wl`, `Wr` ([128, 128])
  and a bias row `B` ([1, 128]), entry (r, q) of `A·Wl + X·Wr + B` is
      (∑ₖ A[r, k] · Wl[k, q]) + (∑ₖ X[r, k] · Wr[k, q]) + B[0, q],
  and the rectified step takes the maximum of that with zero. No rounding is left at the ideal values, so the
  two matrix products are plain sums over the 128 shared features, and the order in which the three summands are
  added does not matter: addition of extended reals is commutative and associative (⊥ absorbs, as it does in
  any order).
-/
import Idealize.ShloMosaic.PureOps.Ideal
import Idealize.ShloMosaic.PureOps.Ideal.Laws
import Idealize.ShloMosaic.Lib.ValueIdx

noncomputable section

namespace Cert.Sage

open Idealize.ShloMosaic

/-- Node features: 50000 nodes by 128 features. -/
abbrev Nodes : Shape := ⟨2, ![50000, 128]⟩
/-- A weight matrix: 128 input features by 128 output features. -/
abbrev Wt : Shape := ⟨2, ![128, 128]⟩
/-- A bias as a row. -/
abbrev BiasRow : Shape := ⟨2, ![1, 128]⟩
/-- A bias as a vector. -/
abbrev BiasVec : Shape := ⟨1, ![128]⟩

/-- Entry (r, k) of a node array, for the entry i = (r, q). -/
abbrev rowAt (i : Nodes.Idx) (k : Fin 128) : Nodes.Idx := fun a => match a with
  | ⟨0, _⟩ => ⟨(i 0).val, (i 0).isLt⟩
  | ⟨1, _⟩ => ⟨k.val, k.isLt⟩
/-- Entry (k, q) of a weight matrix, for the entry i = (r, q). -/
abbrev colAt (i : Nodes.Idx) (k : Fin 128) : Wt.Idx := fun a => match a with
  | ⟨0, _⟩ => ⟨k.val, k.isLt⟩
  | ⟨1, _⟩ => ⟨(i 1).val, (i 1).isLt⟩
/-- Entry (0, q) of a bias row, for the entry i = (r, q). -/
abbrev biasAt (i : Nodes.Idx) : BiasRow.Idx := fun a => match a with
  | ⟨0, _⟩ => ⟨0, Nat.one_pos⟩
  | ⟨1, _⟩ => ⟨(i 1).val, (i 1).isLt⟩
/-- Entry q of a bias vector, for the entry i = (r, q). -/
abbrev biasVecAt (i : Nodes.Idx) : BiasVec.Idx := fun a => match a with
  | ⟨0, _⟩ => ⟨(i 1).val, (i 1).isLt⟩

/-- `A·Wl + X·Wr + B` at an entry, the two products added first and the bias last. -/
def lin (A X : FVec Ideal Nodes .f32) (Wl Wr : FVec Ideal Wt .f32) (B : FVec Ideal BiasRow .f32) : FVec Ideal Nodes .f32 :=
  fun i => ((∑ k : Fin 128, A (rowAt i k) * Wl (colAt i k)) + (∑ k : Fin 128, X (rowAt i k) * Wr (colAt i k))) + B (biasAt i)

/-- The rectified step: the maximum of `lin` with the zero word's value. -/
def linRelu (A X : FVec Ideal Nodes .f32) (Wl Wr : FVec Ideal Wt .f32) (B : FVec Ideal BiasRow .f32) : FVec Ideal Nodes .f32 :=
  fun i => max (lin A X Wl Wr B i) (Ideal.ofBits .f32 0x00000000#32)

/-- The same three summands with the bias added between the two products: one value, since addition of extended
    reals is commutative and associative. -/
theorem add_bias_between (p q b : EReal) : (p + q) + b = (p + b) + q := add_right_comm p q b

end Cert.Sage

end
-- ==== Proof.Payload.lean ====
/-
  What each of the three layer kernels stores, read at one entry of its [5000, 128] block.

  A kernel casts its two [5000, 128] operands and its two [128, 128] weights to bf16 (the identity at the ideal
  values), multiplies them on the matrix unit into a zero accumulator, adds the two products, adds the bias row
  broadcast down the rows, and (first two layers) takes the maximum with zero. At the ideal values a matrix
  product into zero is the plain sum over the 128 contracted features, so entry (r, q) of the stored block is
      (∑ₖ a[r, k] · wl[k, q]) + (∑ₖ x[r, k] · wr[k, q]) + b[0, q],
  rectified for the first two kernels.
-/
import proofs.«147874_j67783173865548_1_alg».proof.Proof.Gen.KernelIdeal.Skeleton
import proofs.«147874_j67783173865548_1_alg».proof.Proof.Lin
import Idealize.ShloMosaic.PureOps.Ideal.Laws
import Idealize.ShloMosaic.Lib.ValueIdx
import Idealize.ShloMosaic.Lib.Pipeline.Value

noncomputable section

namespace Cert.KernelIdeal.Hand

open Idealize.ShloMosaic Cert.KernelIdeal Cert.KernelIdeal.Gen

/-- Entry (r, k) of a [5000, 128] block, for the entry j = (r, q). -/
abbrev brow (j : S5000x128.Idx) (k : Fin 128) : S5000x128.Idx := fun a => match a with
  | ⟨0, _⟩ => ⟨(j 0).val, (j 0).isLt⟩
  | ⟨1, _⟩ => ⟨k.val, k.isLt⟩
/-- Entry (k, q) of a weight matrix, for the entry j = (r, q). -/
abbrev bcol (j : S5000x128.Idx) (k : Fin 128) : S128x128.Idx := fun a => match a with
  | ⟨0, _⟩ => ⟨k.val, k.isLt⟩
  | ⟨1, _⟩ => ⟨(j 1).val, (j 1).isLt⟩
/-- Entry (0, q) of the bias row, for the entry j = (r, q). -/
abbrev bbias (j : S5000x128.Idx) : S1x128.Idx := fun a => match a with
  | ⟨0, _⟩ => ⟨0, Nat.one_pos⟩
  | ⟨1, _⟩ => ⟨(j 1).val, (j 1).isLt⟩

/-! ## The block product's operand indices: rows of the left operand, columns of the right -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at entry (r, q): the sum over k of left[r, k] · right[k, q]. -/
theorem matmul_blk {φ₁ φ₂ : FTy} (l : FVec Ideal S5000x128 φ₁) (r : FVec Ideal S128x128 φ₂) (j : S5000x128.Idx) :
    matmul dot_S5000x128_S128x128_S5000x128_1_0_0_1_n_n none l r (constant S5000x128 .f32 0x00000000#32) j
      = ∑ k : Fin 128, l (brow j k) * r (bcol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_blk_0 _ _).trans hk
    | ⟨1, _⟩ => exact rhs_blk_1 _ _)
  rw [el, er]

/-- The bias row broadcast down the 5000 rows, at entry (r, q): the row's entry (0, q). -/
theorem bias_blk (b : FVec Ideal S1x128 .f32) (j : S5000x128.Idx) :
    broadcastTo S5000x128 b broadcasts_S1x128_S5000x128 j = b (bbias j) :=
  broadcastTo_apply b broadcasts_S1x128_S5000x128 j (bbias j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The unrectified value at an entry: the two products, then the bias. -/
abbrev entry (a x : Vec Ideal S5000x128 .f32) (wl wr : Vec Ideal S128x128 .f32) (b : Vec Ideal S1x128 .f32) (j : S5000x128.Idx) : EReal :=
  ((∑ k : Fin 128, a (brow j k) * wl (bcol j k)) + (∑ k : Fin 128, x (brow j k) * wr (bcol j k))) + b (bbias j)

/-- Layer 0's kernel: the rectified entry. -/
theorem pay0_apply (v0 v3 : Vec Ideal S5000x128 .f32) (v5 v7 : Vec Ideal S128x128 .f32) (v12 : Vec Ideal S1x128 .f32) (j : S5000x128.Idx) :
    k0_pay1 (F := Ideal) v0 v3 v5 v7 v12 j = max (entry v0 v3 v5 v7 v12 j) (Ideal.ofBits .f32 0x00000000#32) := by
  unfold k0_pay1
  simp only [shapeCast_self]
  show max ((matmul (F := Ideal) dot_S5000x128_S128x128_S5000x128_1_0_0_1_n_n none (truncf .bf16 v0 bitsLt_bf16_f32) (truncf .bf16 v5 bitsLt_bf16_f32) (constant S5000x128 .f32 0x00000000#32) j
      + matmul (F := Ideal) dot_S5000x128_S128x128_S5000x128_1_0_0_1_n_n none (truncf .bf16 v3 bitsLt_bf16_f32) (truncf .bf16 v7 bitsLt_bf16_f32) (constant S5000x128 .f32 0x00000000#32) j)
      + broadcastTo S5000x128 v12 broadcasts_S1x128_S5000x128 j) (Ideal.ofBits .f32 0x00000000#32) = _
  rw [matmul_blk, matmul_blk, bias_blk]
  rfl

/-- Layer 1's kernel: the rectified entry. -/
theorem pay1_apply (v0 v3 : Vec Ideal S5000x128 .f32) (v6 v8 : Vec Ideal S128x128 .f32) (v13 : Vec Ideal S1x128 .f32) (j : S5000x128.Idx) :
    k1_pay1 (F := Ideal) v0 v3 v6 v8 v13 j = max (entry v0 v3 v6 v8 v13 j) (Ideal.ofBits .f32 0x00000000#32) := by
  unfold k1_pay1
  simp only [shapeCast_self]
  show max ((matmul (F := Ideal) dot_S5000x128_S128x128_S5000x128_1_0_0_1_n_n none (truncf .bf16 v0 bitsLt_bf16_f32) (truncf .bf16 v6 bitsLt_bf16_f32) (constant S5000x128 .f32 0x00000000#32) j
      + matmul (F := Ideal) dot_S5000x128_S128x128_S5000x128_1_0_0_1_n_n none (truncf .bf16 v3 bitsLt_bf16_f32) (truncf .bf16 v8 bitsLt_bf16_f32) (constant S5000x128 .f32 0x00000000#32) j)
      + broadcastTo S5000x128 v13 broadcasts_S1x128_S5000x128 j) (Ideal.ofBits .f32 0x00000000#32) = _
  rw [matmul_blk, matmul_blk, bias_blk]
  rfl

/-- Layer 2's kernel: the entry, not rectified. -/
theorem pay2_apply (v0 v3 : Vec Ideal S5000x128 .f32) (v6 v8 : Vec Ideal S128x128 .f32) (v13 : Vec Ideal S1x128 .f32) (j : S5000x128.Idx) :
    k2_pay1 (F := Ideal) v0 v3 v6 v8 v13 j = entry v0 v3 v6 v8 v13 j := by
  unfold k2_pay1
  simp only [shapeCast_self]
  show (matmul (F := Ideal) dot_S5000x128_S128x128_S5000x128_1_0_0_1_n_n none (truncf .bf16 v0 bitsLt_bf16_f32) (truncf .bf16 v6 bitsLt_bf16_f32) (constant S5000x128 .f32 0x00000000#32) j
      + matmul (F := Ideal) dot_S5000x128_S128x128_S5000x128_1_0_0_1_n_n none (truncf .bf16 v3 bitsLt_bf16_f32) (truncf .bf16 v8 bitsLt_bf16_f32) (constant S5000x128 .f32 0x00000000#32) j)
      + broadcastTo S5000x128 v13 broadcasts_S1x128_S5000x128 j = _
  rw [matmul_blk, matmul_blk, bias_blk]
  rfl

/-- A whole-block access starts at offset (0, 0). -/
theorem hz : (![0, 0] : Fin 2 → Nat) = fun _ => 0 := funext fun a => by fin_cases a <;> rfl

/-- A block's entry is the whole-array linear step's entry, when the block's operands are the arrays' rows and
    columns the entry reads: rows r of the two operands, column q of the weights, entry (0, q) of the bias. -/
theorem entry_eq (a x : Vec Ideal S5000x128 .f32) (wl wr : Vec Ideal S128x128 .f32) (b : Vec Ideal S1x128 .f32)
    (A X : Vec Ideal S50000x128 .f32) (Wl Wr : Vec Ideal S128x128 .f32) (B : Vec Ideal S1x128 .f32)
    (j : S5000x128.Idx) (i : S50000x128.Idx)
    (ha : ∀ k, a (brow j k) = A (Cert.Sage.rowAt i k)) (hx : ∀ k, x (brow j k) = X (Cert.Sage.rowAt i k))
    (hwl : ∀ k, wl (bcol j k) = Wl (Cert.Sage.colAt i k)) (hwr : ∀ k, wr (bcol j k) = Wr (Cert.Sage.colAt i k))
    (hb : b (bbias j) = B (Cert.Sage.biasAt i)) :
    entry a x wl wr b j = Cert.Sage.lin A X Wl Wr B i := by
  unfold entry Cert.Sage.lin
  simp only [ha, hx, hwl, hwr, hb]

end Cert.KernelIdeal.Hand

end
-- ==== Proof.Region0.lean ====
/-
  Layer 0's pallas_call, as one function of the arrays it finds.

  The call walks the 50000 rows in ten blocks of 5000. At point t it reads rows 5000·t … 5000·t + 4999 of the
  neighbour means and of the node features, the two whole weight matrices and the bias row, and writes back rows
  5000·t … of the result. Entry (r, q) of what it writes depends only on row 5000·t + r of the two operands, column q
  of the weights and entry (0, q) of the bias, so the written block is block t of ONE whole-array function:
  the rectified linear step of `Cert.Sage.linRelu` of the five arrays. The ten blocks tile the
  result (row i lies in block i / 5000), so after the call the result array holds that function everywhere.
  Stated at any contents `V` the call may be entered from.
-/
import proofs.«147874_j67783173865548_1_alg».proof.Proof.Gen.KernelIdeal.Frame
import proofs.«147874_j67783173865548_1_alg».proof.Proof.Payload
import proofs.«147874_j67783173865548_1_alg».proof.Proof.Lin
import Idealize.ShloMosaic.Lib.Pipeline.Value

set_option maxRecDepth 16384

noncomputable section

namespace Cert.KernelIdeal.Hand

open Idealize.ShloMosaic Idealize.ShloMosaic.TcCoe Idealize.SL.Sem Cert.KernelIdeal Cert.KernelIdeal.Gen Cert.Sage
open Idealize.ShloMosaic.Pipeline (Dat)

variable (V : (c : Dev nD) → (b : Ref sig .tc) → Buf (Elt Ideal) ((c : Thread nD τ).loc b))

/-- The five arrays layer 0's call reads, each at its literal type. -/
abbrev agg0 (c : Dev nD) : Vec Ideal S50000x128 .f32 := V c main_v22
abbrev feat0 (c : Dev nD) : Vec Ideal S50000x128 .f32 := V c main_arg0
abbrev wl0 (c : Dev nD) : Vec Ideal S128x128 .f32 := V c main_arg2
abbrev wr0 (c : Dev nD) : Vec Ideal S128x128 .f32 := V c main_arg4
abbrev bias0 (c : Dev nD) : Vec Ideal S1x128 .f32 := V c main_v23

/-- What layer 0's result array holds after the call: the rectified linear step of the arrays it read. -/
def layer0 (c : Dev nD) : Vec Ideal S50000x128 .f32 :=
  linRelu (agg0 V c) (feat0 V c) (wl0 V c) (wr0 V c) (bias0 V c)

/-- The index maps over the grid: the two row-blocked operands move with the result (block row t, block column 0), the
    weights and the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of `layer0`. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts0 t
  funext j
  refine (pay0_apply (iblk0 V c 0 t) (iblk0 V c 1 t) (iblk0 V c 2 t) (iblk0 V c 4 t) (iblk0 V c 3 t) j).trans ?_
  refine congrArg (fun z : EReal => max z (Ideal.ofBits .f32 0x00000000#32))
    (entry_eq (iblk0 V c 0 t) (iblk0 V c 1 t) (iblk0 V c 2 t) (iblk0 V c 4 t) (iblk0 V c 3 t)
      (agg0 V c) (feat0 V c) (wl0 V c) (wr0 V c) (bias0 V c) j (((cfg0.win 5).blk t).view.emb j) ?_ ?_ ?_ ?_ ?_)
  · intro k
    show V c main_v22 (((cfg0.win 0).blk t).view.emb (brow j k)) = V c main_v22 (rowAt (((cfg0.win 5).blk t).view.emb j) k)
    refine congrArg (V c main_v22) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg0 (((cfg0.win 1).blk t).view.emb (brow j k)) = V c main_arg0 (rowAt (((cfg0.win 5).blk t).view.emb j) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · intro k
    show V c main_arg2 (((cfg0.win 2).blk t).view.emb (bcol j k)) = V c main_arg2 (colAt (((cfg0.win 5).blk t).view.emb j) k)
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · intro k
    show V c main_arg4 (((cfg0.win 4).blk t).view.emb (bcol j k)) = V c main_arg4 (colAt (((cfg0.win 5).blk t).view.emb j) k)
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_5.index t (1 : Fin 2) * 128 + 1 * (j 1).val; omega
  · show V c main_v23 (((cfg0.win 3).blk t).view.emb (bbias j)) = V c main_v23 (biasAt (((cfg0.win 5).blk t).view.emb j))
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega

/-- An index of the result is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every row of the result is in some point's block: row i in block i / 5000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  rw [mem_blk0]
  obtain ⟨-, -, -, -, -, -, -, -, -, -, e50, e51⟩ := idx_facts0 ⟨(i 0).val / 5000, by rw [hN]; omega⟩
  intro a
  match a with
  | ⟨0, _⟩ => show win0_5.index _ (0 : Fin 2) * 5000 ≤ (i 0).val ∧ (i 0).val < win0_5.index _ (0 : Fin 2) * 5000 + 5000; rw [e50]; show (i 0).val / 5000 * 5000 ≤ (i 0).val ∧ (i 0).val < (i 0).val / 5000 * 5000 + 5000; omega
  | ⟨1, _⟩ => show win0_5.index _ (1 : Fin 2) * 128 ≤ (i 1).val ∧ (i 1).val < win0_5.index _ (1 : Fin 2) * 128 + 128; rw [e51]; omega

/-- THE RESULT ARRAY after the call: `layer0` of the arrays the call found. -/
theorem final0 (c : Dev nD) : (dat0 V c).arrAt 5 cfg0.N = layer0 V c :=
  (dat0 V c).arrAt_eq_of_cover 5 (layer0 V c) (fun t _ => flushed0 V c t) cover0

end Cert.KernelIdeal.Hand

end
-- ==== Proof.Region1.lean ====
/-
  Layer 1's pallas_call, as one function of the arrays it finds.

  The call walks the 50000 rows in ten blocks of 5000. At point t it reads rows 5000·t … 5000·t + 4999 of the
  neighbour means and of the node features, the two whole weight matrices and the bias row, and writes back rows
  5000·t … of the result. Entry (r, q) of what it writes depends only on row 5000·t + r of the two operands, column q
  of the weights and entry (0, q) of the bias, so the written block is block t of ONE whole-array function:
  the rectified linear step of `Cert.Sage.linRelu` of the five arrays. The ten blocks tile the
  result (row i lies in block i / 5000), so after the call the result array holds that function everywhere.
  Stated at any contents `V` the call may be entered from.
-/
import proofs.«147874_j67783173865548_1_alg».proof.Proof.Gen.KernelIdeal.Frame
import proofs.«147874_j67783173865548_1_alg».proof.Proof.Payload
import proofs.«147874_j67783173865548_1_alg».proof.Proof.Lin
import Idealize.ShloMosaic.Lib.Pipeline.Value

set_option maxRecDepth 16384

noncomputable section

namespace Cert.KernelIdeal.Hand

open Idealize.ShloMosaic Idealize.ShloMosaic.TcCoe Idealize.SL.Sem Cert.KernelIdeal Cert.KernelIdeal.Gen Cert.Sage
open Idealize.ShloMosaic.Pipeline (Dat)

variable (V : (c : Dev nD) → (b : Ref sig .tc) → Buf (Elt Ideal) ((c : Thread nD τ).loc b))

/-- The five arrays layer 1's call reads, each at its literal type. -/
abbrev agg1 (c : Dev nD) : Vec Ideal S50000x128 .f32 := V c main_v43
abbrev feat1 (c : Dev nD) : Vec Ideal S50000x128 .f32 := V c main_v24
abbrev wl1 (c : Dev nD) : Vec Ideal S128x128 .f32 := V c main_arg5
abbrev wr1 (c : Dev nD) : Vec Ideal S128x128 .f32 := V c main_arg7
abbrev bias1 (c : Dev nD) : Vec Ideal S1x128 .f32 := V c main_v44

/-- What layer 1's result array holds after the call: the rectified linear step of the arrays it read. -/
def layer1 (c : Dev nD) : Vec Ideal S50000x128 .f32 :=
  linRelu (agg1 V c) (feat1 V c) (wl1 V c) (wr1 V c) (bias1 V c)

/-- The index maps over the grid: the two row-blocked operands move with the result (block row t, block column 0), the
    weights and the bias stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of `layer1`. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts1 t
  funext j
  refine (pay1_apply (iblk1 V c 0 t) (iblk1 V c 1 t) (iblk1 V c 2 t) (iblk1 V c 4 t) (iblk1 V c 3 t) j).trans ?_
  refine congrArg (fun z : EReal => max z (Ideal.ofBits .f32 0x00000000#32))
    (entry_eq (iblk1 V c 0 t) (iblk1 V c 1 t) (iblk1 V c 2 t) (iblk1 V c 4 t) (iblk1 V c 3 t)
      (agg1 V c) (feat1 V c) (wl1 V c) (wr1 V c) (bias1 V c) j (((cfg1.win 5).blk t).view.emb j) ?_ ?_ ?_ ?_ ?_)
  · intro k
    show V c main_v43 (((cfg1.win 0).blk t).view.emb (brow j k)) = V c main_v43 (rowAt (((cfg1.win 5).blk t).view.emb j) k)
    refine congrArg (V c main_v43) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v24 (((cfg1.win 1).blk t).view.emb (brow j k)) = V c main_v24 (rowAt (((cfg1.win 5).blk t).view.emb j) k)
    refine congrArg (V c main_v24) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · intro k
    show V c main_arg5 (((cfg1.win 2).blk t).view.emb (bcol j k)) = V c main_arg5 (colAt (((cfg1.win 5).blk t).view.emb j) k)
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · intro k
    show V c main_arg7 (((cfg1.win 4).blk t).view.emb (bcol j k)) = V c main_arg7 (colAt (((cfg1.win 5).blk t).view.emb j) k)
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega
  · show V c main_v44 (((cfg1.win 3).blk t).view.emb (bbias j)) = V c main_v44 (biasAt (((cfg1.win 5).blk t).view.emb j))
    refine congrArg (V c main_v44) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega

/-- An index of the result is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Every row of the result is in some point's block: row i in block i / 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk1]
  obtain ⟨-, -, -, -, -, -, -, -, -, -, e50, e51⟩ := idx_facts1 ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e50]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e51]; omega

/-- THE RESULT ARRAY after the call: `layer1` of the arrays the call found. -/
theorem final1 (c : Dev nD) : (dat1 V c).arrAt 5 cfg1.N = layer1 V c :=
  (dat1 V c).arrAt_eq_of_cover 5 (layer1 V c) (fun t _ => flushed1 V c t) cover1

end Cert.KernelIdeal.Hand

end
-- ==== Proof.Region2.lean ====
/-
  Layer 2's pallas_call, as one function of the arrays it finds.

  The call walks the 50000 rows in ten blocks of 5000. At point t it reads rows 5000·t … 5000·t + 4999 of the
  neighbour means and of the node features, the two whole weight matrices and the bias row, and writes back rows
  5000·t … of the result. Entry (r, q) of what it writes depends only on row 5000·t + r of the two operands, column q
  of the weights and entry (0, q) of the bias, so the written block is block t of ONE whole-array function:
  the linear step of `Cert.Sage.lin` of the five arrays. The ten blocks tile the
  result (row i lies in block i / 5000), so after the call the result array holds that function everywhere.
  Stated at any contents `V` the call may be entered from.
-/
import proofs.«147874_j67783173865548_1_alg».proof.Proof.Gen.KernelIdeal.Frame
import proofs.«147874_j67783173865548_1_alg».proof.Proof.Payload
import proofs.«147874_j67783173865548_1_alg».proof.Proof.Lin
import Idealize.ShloMosaic.Lib.Pipeline.Value

set_option maxRecDepth 16384

noncomputable section

namespace Cert.KernelIdeal.Hand

open Idealize.ShloMosaic Idealize.ShloMosaic.TcCoe Idealize.SL.Sem Cert.KernelIdeal Cert.KernelIdeal.Gen Cert.Sage
open Idealize.ShloMosaic.Pipeline (Dat)

variable (V : (c : Dev nD) → (b : Ref sig .tc) → Buf (Elt Ideal) ((c : Thread nD τ).loc b))

/-- The five arrays layer 2's call reads, each at its literal type. -/
abbrev agg2 (c : Dev nD) : Vec Ideal S50000x128 .f32 := V c main_v64
abbrev feat2 (c : Dev nD) : Vec Ideal S50000x128 .f32 := V c main_v45
abbrev wl2 (c : Dev nD) : Vec Ideal S128x128 .f32 := V c main_arg8
abbrev wr2 (c : Dev nD) : Vec Ideal S128x128 .f32 := V c main_arg10
abbrev bias2 (c : Dev nD) : Vec Ideal S1x128 .f32 := V c main_v65

/-- What layer 2's result array holds after the call: the linear step of the arrays it read. -/
def layer2 (c : Dev nD) : Vec Ideal S50000x128 .f32 :=
  lin (agg2 V c) (feat2 V c) (wl2 V c) (wr2 V c) (bias2 V c)

/-- The index maps over the grid: the two row-blocked operands move with the result (block row t, block column 0), the
    weights and the bias stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT t WRITES BACK is block t of `layer2`. -/
theorem flushed2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts2 t
  funext j
  refine (pay2_apply (iblk2 V c 0 t) (iblk2 V c 1 t) (iblk2 V c 2 t) (iblk2 V c 4 t) (iblk2 V c 3 t) j).trans ?_
  refine
    (entry_eq (iblk2 V c 0 t) (iblk2 V c 1 t) (iblk2 V c 2 t) (iblk2 V c 4 t) (iblk2 V c 3 t)
      (agg2 V c) (feat2 V c) (wl2 V c) (wr2 V c) (bias2 V c) j (((cfg2.win 5).blk t).view.emb j) ?_ ?_ ?_ ?_ ?_)
  · intro k
    show V c main_v64 (((cfg2.win 0).blk t).view.emb (brow j k)) = V c main_v64 (rowAt (((cfg2.win 5).blk t).view.emb j) k)
    refine congrArg (V c main_v64) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · intro k
    show V c main_v45 (((cfg2.win 1).blk t).view.emb (brow j k)) = V c main_v45 (rowAt (((cfg2.win 5).blk t).view.emb j) k)
    refine congrArg (V c main_v45) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · intro k
    show V c main_arg8 (((cfg2.win 2).blk t).view.emb (bcol j k)) = V c main_arg8 (colAt (((cfg2.win 5).blk t).view.emb j) k)
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_5.index t (1 : Fin 2) * 128 + 1 * (j 1).val; omega
  · intro k
    show V c main_arg10 (((cfg2.win 4).blk t).view.emb (bcol j k)) = V c main_arg10 (colAt (((cfg2.win 5).blk t).view.emb j) k)
    refine congrArg (V c main_arg10) (funext fun a => Fin.ext ?_)
    match a with
    | ⟨0, _⟩ => show win2_4.index t (0 : Fin 2) * 128 + 1 * k.val = k.val; omega
    | ⟨1, _⟩ => show win2_4.index t (1 : Fin 2) * 128 + 1 * (j 1).val = win2_5.index t (1 : Fin 2) * 128 + 1 * (j 1).val; omega
  · show V c main_v65 (((cfg2.win 3).blk t).view.emb (bbias j)) = V c main_v65 (biasAt (((cfg2.win 5).blk t).view.emb j))
    refine congrArg (V c main_v65) (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega

/-- An index of the result is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v66).slice (win2_5.rect t)).set ↔ _
  rw [View.set_slice_whole, Rect.mem_set_unit]
  exact Iff.rfl

/-- Every row of the result is in some point's block: row i in block i / 5000. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk2]
  obtain ⟨-, -, -, -, -, -, -, -, -, -, e50, e51⟩ := idx_facts2 ⟨(i 0).val / 5000, by rw [hN]; omega⟩
  intro a
  match a with
  | ⟨0, _⟩ => show win2_5.index _ (0 : Fin 2) * 5000 ≤ (i 0).val ∧ (i 0).val < win2_5.index _ (0 : Fin 2) * 5000 + 5000; rw [e50]; show (i 0).val / 5000 * 5000 ≤ (i 0).val ∧ (i 0).val < (i 0).val / 5000 * 5000 + 5000; omega
  | ⟨1, _⟩ => show win2_5.index _ (1 : Fin 2) * 128 ≤ (i 1).val ∧ (i 1).val < win2_5.index _ (1 : Fin 2) * 128 + 128; rw [e51]; omega

/-- THE RESULT ARRAY after the call: `layer2` of the arrays the call found. -/
theorem final2 (c : Dev nD) : (dat2 V c).arrAt 5 cfg2.N = layer2 V c :=
  (dat2 V c).arrAt_eq_of_cover 5 (layer2 V c) (fun t _ => flushed2 V c t) cover2

end Cert.KernelIdeal.Hand

end
-- ==== Proof.Mean.lean ====
/-
  The neighbour mean of a GraphSAGE layer, as one function.

  Both programs compute it by the same host operations: the edge list's first row gives each edge's source node and
  its second row the destination; a negative source id is wrapped by adding the node count; each edge gathers its
  source's feature row; the rows are scatter-added onto the destinations, a row of ones likewise to count each
  node's in-edges; and every node's sum is divided by the maximum of its count and one. This module names that chain
  once, over any feature array `h`, so that neither side of the certificate ever opens it: the two programs are
  compared layer by layer with the same `meanAgg` applied to equal features.
-/
import proofs.«147874_j67783173865548_1_alg».proof.Proof.Gen.KernelIdeal

noncomputable section

namespace Cert.KernelIdeal.Hand

open Idealize.ShloMosaic Cert.KernelIdeal Cert.KernelIdeal.Facts₀ Cert.KernelIdeal.Facts

variable {F : FTy → Type} [FloatOps F]

/-- Each edge's source node: the edge list's first row. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Each edge's destination node: the edge list's second row. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The mean of the feature rows `h` over each node's in-edges (the sum over a node without in-edges, zero, is
    divided by one). -/
def meanAgg (h : (⟨S50000x128, .f32⟩ : BufTy).Contents (Elt F)) (src dst : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- A bias vector as the row the kernel reads. -/
def biasRow (b : (⟨S128, .f32⟩ : BufTy).Contents (Elt F)) : (⟨S1x128, .f32⟩ : BufTy).Contents (Elt F) :=
  shapeCast _ b shapeCasts_S128_S1x128

end Cert.KernelIdeal.Hand

end
-- ==== Proof.SageK.lean ====
/-
  The three GraphSAGE layers as the kernel's program composes them: each layer takes the neighbour mean of the
  current features (`meanAgg`, over the same edge list every time), applies the linear step to the mean and to the
  features themselves, and — in the first two layers — rectifies. The last layer's output is the program's result.
-/
import proofs.«147874_j67783173865548_1_alg».proof.Proof.Lin
import proofs.«147874_j67783173865548_1_alg».proof.Proof.Mean

noncomputable section

namespace Cert.KernelIdeal.Hand

open Idealize.ShloMosaic Cert.KernelIdeal Cert.Sage

variable (x : (⟨S50000x128, .f32⟩ : BufTy).Contents (Elt Ideal)) (e : (⟨S2x800000, .i32⟩ : BufTy).Contents (Elt Ideal))
  (Wl0 : (⟨S128x128, .f32⟩ : BufTy).Contents (Elt Ideal)) (b0 : (⟨S128, .f32⟩ : BufTy).Contents (Elt Ideal)) (Wr0 : (⟨S128x128, .f32⟩ : BufTy).Contents (Elt Ideal))
  (Wl1 : (⟨S128x128, .f32⟩ : BufTy).Contents (Elt Ideal)) (b1 : (⟨S128, .f32⟩ : BufTy).Contents (Elt Ideal)) (Wr1 : (⟨S128x128, .f32⟩ : BufTy).Contents (Elt Ideal))
  (Wl2 : (⟨S128x128, .f32⟩ : BufTy).Contents (Elt Ideal)) (b2 : (⟨S128, .f32⟩ : BufTy).Contents (Elt Ideal)) (Wr2 : (⟨S128x128, .f32⟩ : BufTy).Contents (Elt Ideal))

/-- The first layer's output: rectified. -/
def sage0 : (⟨S50000x128, .f32⟩ : BufTy).Contents (Elt Ideal) :=
  linRelu (meanAgg (F := Ideal) x (srcOf e) (dstOf e)) x Wl0 Wr0 (biasRow b0)

/-- The second layer's output: the same step on the first layer's output, rectified. -/
def sage1 : (⟨S50000x128, .f32⟩ : BufTy).Contents (Elt Ideal) :=
  linRelu (meanAgg (F := Ideal) (sage0 x e Wl0 b0 Wr0) (srcOf e) (dstOf e)) (sage0 x e Wl0 b0 Wr0) Wl1 Wr1 (biasRow b1)

/-- The third layer's output, the result: the same step on the second layer's output, not rectified. -/
def sage2 : (⟨S50000x128, .f32⟩ : BufTy).Contents (Elt Ideal) :=
  lin (meanAgg (F := Ideal) (sage1 x e Wl0 b0 Wr0 Wl1 b1 Wr1) (srcOf e) (dstOf e)) (sage1 x e Wl0 b0 Wr0 Wl1 b1 Wr1) Wl2 Wr2 (biasRow b2)

end Cert.KernelIdeal.Hand

end
-- ==== Proof.KChain.lean ====
/-
  The kernel's program, read from its last boundary back to the launch.

  The program is three pallas_calls among three stretches of host operations. The run's buffer contents at each
  boundary are a fold from the launch memory: a host stretch rewrites the buffers its operations write and keeps the
  rest; a pallas_call rewrites its result array (to the layer's function of the arrays it found) and keeps the rest.
  Walking that fold back from the result array gives the three layers composed: each stretch computes the neighbour
  mean of the current features and reshapes a bias; each call applies the linear step; the edge list's two rows, the
  weights and the biases are never overwritten, so every layer reads them as launched.
-/
import proofs.«147874_j67783173865548_1_alg».proof.Proof.Region0
import proofs.«147874_j67783173865548_1_alg».proof.Proof.Region1
import proofs.«147874_j67783173865548_1_alg».proof.Proof.Region2
import proofs.«147874_j67783173865548_1_alg».proof.Proof.SageK

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg)

/-- A buffer that no operation of a host stretch writes keeps its contents across the stretch: the stretch's
    operations each write one buffer, and the given one is none of them. -/
macro "kept_across " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Across the first stretch: from the launch to the first call's entry -/

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by kept_across hostOps0).trans rfl
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) by kept_across hostOps0).trans rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) by kept_across hostOps0).trans rfl
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) by kept_across hostOps0).trans rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) by kept_across hostOps0).trans rfl
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) by kept_across hostOps0).trans rfl
theorem W1_arg8 (c : Dev nD) : W1 m ρ c (Proc.devRef .tc main_arg8) = m ((c : Thread nD τ).loc main_arg8) :=
  (show W1 m ρ c (Proc.devRef .tc main_arg8) = W0 m ρ c (Proc.devRef .tc main_arg8) by kept_across hostOps0).trans rfl
theorem W1_arg9 (c : Dev nD) : W1 m ρ c (Proc.devRef .tc main_arg9) = m ((c : Thread nD τ).loc main_arg9) :=
  (show W1 m ρ c (Proc.devRef .tc main_arg9) = W0 m ρ c (Proc.devRef .tc main_arg9) by kept_across hostOps0).trans rfl
theorem W1_arg10 (c : Dev nD) : W1 m ρ c (Proc.devRef .tc main_arg10) = m ((c : Thread nD τ).loc main_arg10) :=
  (show W1 m ρ c (Proc.devRef .tc main_arg10) = W0 m ρ c (Proc.devRef .tc main_arg10) by kept_across hostOps0).trans rfl

set_option maxHeartbeats 4000000 in
/-- The edges' sources, computed once by the first stretch. -/
theorem W1_v1 (c : Dev nD) : W1 m ρ c (Proc.devRef .tc main_v1) = srcOf (F := Ideal) (m ((c : Thread nD τ).loc main_arg1)) := by
  show StableHlo.after hostOps0 (W0 m ρ c) (Proc.devRef .tc main_v1) = _
  after_results_simp
  rfl
set_option maxHeartbeats 4000000 in
/-- The edges' destinations, computed once by the first stretch. -/
theorem W1_v3 (c : Dev nD) : W1 m ρ c (Proc.devRef .tc main_v3) = dstOf (F := Ideal) (m ((c : Thread nD τ).loc main_arg1)) := by
  show StableHlo.after hostOps0 (W0 m ρ c) (Proc.devRef .tc main_v3) = _
  after_results_simp
  rfl
set_option maxHeartbeats 4000000 in
/-- The first stretch's neighbour mean: of the input features. -/
theorem W1_v22 (c : Dev nD) : W1 m ρ c (Proc.devRef .tc main_v22)
    = meanAgg (F := Ideal) (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp
  rfl
set_option maxHeartbeats 4000000 in
/-- The first layer's bias as a row. -/
theorem W1_v23 (c : Dev nD) : W1 m ρ c (Proc.devRef .tc main_v23) = biasRow (F := Ideal) (m ((c : Thread nD τ).loc main_arg3)) := by
  show StableHlo.after hostOps0 (W0 m ρ c) (Proc.devRef .tc main_v23) = _
  after_results_simp
  rfl

/-! ## Across the first call -/

/-- The first call leaves the first layer's output in its result array. -/
theorem W2_v24 (c : Dev nD) : W2 m ρ c (Proc.devRef .tc main_v24) = sage0 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0 (V1 m ρ) c).trans ?_)
  unfold layer0 sage0
  show linRelu (W1 m ρ c (Proc.devRef .tc main_v22)) (W1 m ρ c (Proc.devRef .tc main_arg0)) (W1 m ρ c (Proc.devRef .tc main_arg2))
    (W1 m ρ c (Proc.devRef .tc main_arg4)) (W1 m ρ c (Proc.devRef .tc main_v23)) = _
  rw [W1_v22, W1_arg0, W1_arg2, W1_arg4, W1_v23]

theorem W2_v1 (c : Dev nD) : W2 m ρ c (Proc.devRef .tc main_v1) = srcOf (F := Ideal) (m ((c : Thread nD τ).loc main_arg1)) :=
  (W2_of_ne m ρ c main_v1 (by decide)).trans (W1_v1 m ρ c)
theorem W2_v3 (c : Dev nD) : W2 m ρ c (Proc.devRef .tc main_v3) = dstOf (F := Ideal) (m ((c : Thread nD τ).loc main_arg1)) :=
  (W2_of_ne m ρ c main_v3 (by decide)).trans (W1_v3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## Across the second stretch -/

theorem W3_v24 (c : Dev nD) : W3 m ρ c (Proc.devRef .tc main_v24) = sage0 (m ((c : Thread nD τ).loc main_arg0)) (m ((c : Thread nD τ).loc main_arg1)) (m ((c : Thread nD τ).loc main_arg2)) (m ((c : Thread nD τ).loc main_arg3)) (m ((c : Thread nD τ).loc main_arg4)) :=
  (show W3 m ρ c (Proc.devRef .tc main_v24) = W2 m ρ c (Proc.devRef .tc main_v24) by kept_across hostOps1).trans (W2_v24 m ρ c)
theorem W3_v1 (c : Dev nD) : W3 m ρ c (Proc.devRef .tc main_v1) = srcOf (F := Ideal) (m ((c : Thread nD τ).loc main_arg1)) :=
  (show W3 m ρ c (Proc.devRef .tc main_v1) = W2 m ρ c (Proc.devRef .tc main_v1) by kept_across hostOps1).trans (W2_v1 m ρ c)
theorem W3_v3 (c : Dev nD) : W3 m ρ c (Proc.devRef .tc main_v3) = dstOf (F := Ideal) (m ((c : Thread nD τ).loc main_arg1)) :=
  (show W3 m ρ c (Proc.devRef .tc main_v3) = W2 m ρ c (Proc.devRef .tc main_v3) by kept_across hostOps1).trans (W2_v3 m ρ c)
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) by kept_across hostOps1).trans (W2_arg5 m ρ c)
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) by kept_across hostOps1).trans (W2_arg7 m ρ c)
theorem W3_arg8 (c : Dev nD) : W3 m ρ c (Proc.devRef .tc main_arg8) = m ((c : Thread nD τ).loc main_arg8) :=
  (show W3 m ρ c (Proc.devRef .tc main_arg8) = W2 m ρ c (Proc.devRef .tc main_arg8) by kept_across hostOps1).trans (W2_arg8 m ρ c)
theorem W3_arg9 (c : Dev nD) : W3 m ρ c (Proc.devRef .tc main_arg9) = m ((c : Thread nD τ).loc main_arg9) :=
  (show W3 m ρ c (Proc.devRef .tc main_arg9) = W2 m ρ c (Proc.devRef .tc main_arg9) by kept_across hostOps1).trans (W2_arg9 m ρ c)
theorem W3_arg10 (c : Dev nD) : W3 m ρ c (Proc.devRef .tc main_arg10) = m ((c : Thread nD τ).loc main_arg10) :=
  (show W3 m ρ c (Proc.devRef .tc main_arg10) = W2 m ρ c (Proc.devRef .tc main_arg10) by kept_across hostOps1).trans (W2_arg10 m ρ c)

set_option maxHeartbeats 4000000 in
/-- The second stretch's neighbour mean: of the first layer's output. -/
theorem W3_v43 (c : Dev nD) : W3 m ρ c (Proc.devRef .tc main_v43)
    = meanAgg (F := Ideal) (sage0 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  have h : W3 m ρ c (Proc.devRef .tc main_v43)
      = meanAgg (F := Ideal) (W2 m ρ c (Proc.devRef .tc main_v24)) (W2 m ρ c (Proc.devRef .tc main_v1)) (W2 m ρ c (Proc.devRef .tc main_v3)) := by
    show StableHlo.after hostOps1 (W2 m ρ c) (Proc.devRef .tc main_v43) = _
    after_results_simp
    rfl
  rw [h, W2_v24, W2_v1, W2_v3]
set_option maxHeartbeats 4000000 in
/-- The second layer's bias as a row. -/
theorem W3_v44 (c : Dev nD) : W3 m ρ c (Proc.devRef .tc main_v44) = biasRow (F := Ideal) (m ((c : Thread nD τ).loc main_arg6)) := by
  have h : W3 m ρ c (Proc.devRef .tc main_v44) = biasRow (F := Ideal) (W2 m ρ c (Proc.devRef .tc main_arg6)) := by
    show StableHlo.after hostOps1 (W2 m ρ c) (Proc.devRef .tc main_v44) = _
    after_results_simp
    rfl
  rw [h, W2_arg6]

/-! ## Across the second call -/

/-- The second call leaves the second layer's output in its result array. -/
theorem W4_v45 (c : Dev nD) : W4 m ρ c (Proc.devRef .tc main_v45) = sage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((final1 (V3 m ρ) c).trans ?_)
  unfold layer1 sage1
  show linRelu (W3 m ρ c (Proc.devRef .tc main_v43)) (W3 m ρ c (Proc.devRef .tc main_v24)) (W3 m ρ c (Proc.devRef .tc main_arg5))
    (W3 m ρ c (Proc.devRef .tc main_arg7)) (W3 m ρ c (Proc.devRef .tc main_v44)) = _
  rw [W3_v43, W3_v24, W3_arg5, W3_arg7, W3_v44]

theorem W4_v1 (c : Dev nD) : W4 m ρ c (Proc.devRef .tc main_v1) = srcOf (F := Ideal) (m ((c : Thread nD τ).loc main_arg1)) :=
  (W4_of_ne m ρ c main_v1 (by decide)).trans (W3_v1 m ρ c)
theorem W4_v3 (c : Dev nD) : W4 m ρ c (Proc.devRef .tc main_v3) = dstOf (F := Ideal) (m ((c : Thread nD τ).loc main_arg1)) :=
  (W4_of_ne m ρ c main_v3 (by decide)).trans (W3_v3 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)

/-! ## Across the third stretch -/

theorem W5_v45 (c : Dev nD) : W5 m ρ c (Proc.devRef .tc main_v45) = sage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (show W5 m ρ c (Proc.devRef .tc main_v45) = W4 m ρ c (Proc.devRef .tc main_v45) by kept_across hostOps2).trans (W4_v45 m ρ c)
theorem W5_arg8 (c : Dev nD) : W5 m ρ c (Proc.devRef .tc main_arg8) = m ((c : Thread nD τ).loc main_arg8) :=
  (show W5 m ρ c (Proc.devRef .tc main_arg8) = W4 m ρ c (Proc.devRef .tc main_arg8) by kept_across hostOps2).trans (W4_arg8 m ρ c)
theorem W5_arg10 (c : Dev nD) : W5 m ρ c (Proc.devRef .tc main_arg10) = m ((c : Thread nD τ).loc main_arg10) :=
  (show W5 m ρ c (Proc.devRef .tc main_arg10) = W4 m ρ c (Proc.devRef .tc main_arg10) by kept_across hostOps2).trans (W4_arg10 m ρ c)

set_option maxHeartbeats 4000000 in
/-- The third stretch's neighbour mean: of the second layer's output. -/
theorem W5_v64 (c : Dev nD) : W5 m ρ c (Proc.devRef .tc main_v64)
    = meanAgg (F := Ideal) (sage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (srcOf (m ((c : Thread nD τ).loc main_arg1))) (dstOf (m ((c : Thread nD τ).loc main_arg1))) := by
  have h : W5 m ρ c (Proc.devRef .tc main_v64)
      = meanAgg (F := Ideal) (W4 m ρ c (Proc.devRef .tc main_v45)) (W4 m ρ c (Proc.devRef .tc main_v1)) (W4 m ρ c (Proc.devRef .tc main_v3)) := by
    show StableHlo.after hostOps2 (W4 m ρ c) (Proc.devRef .tc main_v64) = _
    after_results_simp
    rfl
  rw [h, W4_v45, W4_v1, W4_v3]
set_option maxHeartbeats 4000000 in
/-- The third layer's bias as a row. -/
theorem W5_v65 (c : Dev nD) : W5 m ρ c (Proc.devRef .tc main_v65) = biasRow (F := Ideal) (m ((c : Thread nD τ).loc main_arg9)) := by
  have h : W5 m ρ c (Proc.devRef .tc main_v65) = biasRow (F := Ideal) (W4 m ρ c (Proc.devRef .tc main_arg9)) := by
    show StableHlo.after hostOps2 (W4 m ρ c) (Proc.devRef .tc main_v65) = _
    after_results_simp
    rfl
  rw [h, W4_arg9]

/-! ## Across the third call: the result -/

/-- THE RESULT ARRAY at the last boundary: the three layers composed, of the arguments as launched. -/
theorem W6_v66 (c : Dev nD) : W6 m ρ c (Proc.devRef .tc main_v66) = sage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((final2 (V5 m ρ) c).trans ?_)
  unfold layer2 sage2
  show lin (W5 m ρ c (Proc.devRef .tc main_v64)) (W5 m ρ c (Proc.devRef .tc main_v45)) (W5 m ρ c (Proc.devRef .tc main_arg8))
    (W5 m ρ c (Proc.devRef .tc main_arg10)) (W5 m ρ c (Proc.devRef .tc main_v65)) = _
  rw [W5_v64, W5_v45, W5_arg8, W5_arg10, W5_v65]

end Cert.KernelIdeal.Hand

end
-- ==== Proof.Ref.lean ====
/-
  The reference, layer by layer, is the kernel's composition.

  The reference computes each layer on the host as `A·Wl + b + X·Wr` with two `dot_general`s and the bias broadcast
  from a vector, and rectifies by `maximum` with a broadcast zero. At the ideal values a `dot_general` is the plain sum
  over the 128 contracted features, the broadcast bias at entry (r, q) is the vector's entry q — which is entry (0, q) of
  the row the kernel reads —, and the three summands may be added in any order. So each of its layers is
  `Cert.Sage.lin` (rectified: `linRelu`) of the same five arrays the kernel's call reads, its neighbour means are the
  same chain `meanAgg`, and by induction over the three layers its result is the kernel's `sage2`.
-/
import proofs.«147874_j67783173865548_1_alg».proof.Proof.Gen.ReferenceIdeal.Read
import proofs.«147874_j67783173865548_1_alg».proof.Proof.SageK
import Idealize.ShloMosaic.Lib.Pipeline.Value

set_option maxRecDepth 16384

noncomputable section

namespace Cert.ReferenceIdeal.Hand

open Idealize.ShloMosaic Idealize.ShloMosaic.TcCoe Idealize.SL.Sem Cert.ReferenceIdeal Cert.ReferenceIdeal.Read Cert.Sage
open Cert.KernelIdeal.Hand (meanAgg srcOf dstOf biasRow sage0 sage1 sage2)

/-- The reference's linear step at an entry: the first product, then the bias, then the second product. -/
theorem refLin_apply (A X : (⟨S50000x128, .f32⟩ : BufTy).Contents (Elt Ideal)) (Wl Wr : (⟨S128x128, .f32⟩ : BufTy).Contents (Elt Ideal)) (b : (⟨S128, .f32⟩ : BufTy).Contents (Elt Ideal)) (i : S50000x128.Idx) :
    addf (F := Ideal) (s := S50000x128) (φ := .f32) (addf (F := Ideal) (s := S50000x128) (φ := .f32) (val_main_v27 (F := Ideal) A Wl) (val_main_v25 (F := Ideal) b)) (val_main_v27 (F := Ideal) X Wr) i
      = ((∑ k : Fin 128, A (lidx_main_v27 i k) * Wl (ridx_main_v27 i k)) + b (idx_main_v24 (idx_main_v25 i)))
        + ∑ k : Fin 128, X (lidx_main_v27 i k) * Wr (ridx_main_v27 i k) := by
  show (val_main_v27 (F := Ideal) A Wl i + val_main_v25 (F := Ideal) b i) + val_main_v27 (F := Ideal) X Wr i = _
  rw [val_main_v27_apply, val_main_v27_apply, val_main_v25_apply, val_main_v24_apply]

/-- The bias row the kernel reads, at entry (0, q), is the bias vector's entry q. -/
theorem biasRow_apply (b : (⟨S128, .f32⟩ : BufTy).Contents (Elt Ideal)) (i : S50000x128.Idx) :
    biasRow (F := Ideal) b (biasAt i) = b (idx_main_v24 (idx_main_v25 i)) := by
  unfold biasRow
  refine (shapeCast_addUnit_apply ![128] b _ (biasAt i)).trans (congrArg b (funext fun a => ?_))
  match a with
  | ⟨0, _⟩ => rfl

/-- ONE LAYER, not rectified: the kernel's order of addition against the reference's. -/
theorem lin_eq_ref (A X : (⟨S50000x128, .f32⟩ : BufTy).Contents (Elt Ideal)) (Wl Wr : (⟨S128x128, .f32⟩ : BufTy).Contents (Elt Ideal)) (b : (⟨S128, .f32⟩ : BufTy).Contents (Elt Ideal)) :
    lin A X Wl Wr (biasRow (F := Ideal) b)
      = addf (F := Ideal) (s := S50000x128) (φ := .f32) (addf (F := Ideal) (s := S50000x128) (φ := .f32) (val_main_v27 (F := Ideal) A Wl) (val_main_v25 (F := Ideal) b)) (val_main_v27 (F := Ideal) X Wr) := by
  funext i
  rw [refLin_apply]
  unfold lin
  rw [biasRow_apply]
  exact add_bias_between _ _ _

/-- The rectifier's broadcast zero, at any entry, is the zero word's value. -/
theorem relu_zero0 (i : S50000x128.Idx) : val_main_call0_v0 (F := Ideal) i = Ideal.ofBits .f32 0x00000000#32 := by
  rw [val_main_call0_v0_apply]; rfl
theorem relu_zero1 (i : S50000x128.Idx) : val_main_call1_v0 (F := Ideal) i = Ideal.ofBits .f32 0x00000000#32 := by
  rw [val_main_call1_v0_apply]; rfl

/-- ONE LAYER, rectified (the first layer's zero). -/
theorem linRelu_eq_ref0 (A X : (⟨S50000x128, .f32⟩ : BufTy).Contents (Elt Ideal)) (Wl Wr : (⟨S128x128, .f32⟩ : BufTy).Contents (Elt Ideal)) (b : (⟨S128, .f32⟩ : BufTy).Contents (Elt Ideal)) :
    linRelu A X Wl Wr (biasRow (F := Ideal) b)
      = maximumf (F := Ideal) (s := S50000x128) (φ := .f32) (addf (F := Ideal) (s := S50000x128) (φ := .f32) (addf (F := Ideal) (s := S50000x128) (φ := .f32) (val_main_v27 (F := Ideal) A Wl) (val_main_v25 (F := Ideal) b)) (val_main_v27 (F := Ideal) X Wr)) (val_main_call0_v0 (F := Ideal)) := by
  funext i
  show max (lin A X Wl Wr (biasRow (F := Ideal) b) i) (Ideal.ofBits .f32 0x00000000#32)
    = max (addf (F := Ideal) (s := S50000x128) (φ := .f32) (addf (F := Ideal) (s := S50000x128) (φ := .f32) (val_main_v27 (F := Ideal) A Wl) (val_main_v25 (F := Ideal) b)) (val_main_v27 (F := Ideal) X Wr) i) (val_main_call0_v0 (F := Ideal) i)
  rw [lin_eq_ref, relu_zero0]

/-- ONE LAYER, rectified (the second layer's zero). -/
theorem linRelu_eq_ref1 (A X : (⟨S50000x128, .f32⟩ : BufTy).Contents (Elt Ideal)) (Wl Wr : (⟨S128x128, .f32⟩ : BufTy).Contents (Elt Ideal)) (b : (⟨S128, .f32⟩ : BufTy).Contents (Elt Ideal)) :
    linRelu A X Wl Wr (biasRow (F := Ideal) b)
      = maximumf (F := Ideal) (s := S50000x128) (φ := .f32) (addf (F := Ideal) (s := S50000x128) (φ := .f32) (addf (F := Ideal) (s := S50000x128) (φ := .f32) (val_main_v27 (F := Ideal) A Wl) (val_main_v25 (F := Ideal) b)) (val_main_v27 (F := Ideal) X Wr)) (val_main_call1_v0 (F := Ideal)) := by
  funext i
  show max (lin A X Wl Wr (biasRow (F := Ideal) b) i) (Ideal.ofBits .f32 0x00000000#32)
    = max (addf (F := Ideal) (s := S50000x128) (φ := .f32) (addf (F := Ideal) (s := S50000x128) (φ := .f32) (val_main_v27 (F := Ideal) A Wl) (val_main_v25 (F := Ideal) b)) (val_main_v27 (F := Ideal) X Wr) i) (val_main_call1_v0 (F := Ideal) i)
  rw [lin_eq_ref, relu_zero1]

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal))
  (x5 : (⟨S128x128, .f32⟩ : BufTy).Contents (Elt Ideal)) (x6 : (⟨S128, .f32⟩ : BufTy).Contents (Elt Ideal)) (x7 : (⟨S128x128, .f32⟩ : BufTy).Contents (Elt Ideal))
  (x8 : (⟨S128x128, .f32⟩ : BufTy).Contents (Elt Ideal)) (x9 : (⟨S128, .f32⟩ : BufTy).Contents (Elt Ideal)) (x10 : (⟨S128x128, .f32⟩ : BufTy).Contents (Elt Ideal))

/-! ## The reference's stages are the same chains -/

/-- The reference's first neighbour mean is `meanAgg` of the input features. -/
theorem mean0 : val_main_v22 (F := Ideal) x0 x1 = meanAgg (F := Ideal) x0 (srcOf x1) (dstOf x1) := rfl
/-- Its first layer, spelt with one product's and one bias's stage. -/
theorem stage0 : val_main_v29 (F := Ideal) x0 x1 x2 x3 x4
    = maximumf (F := Ideal) (s := S50000x128) (φ := .f32) (addf (F := Ideal) (s := S50000x128) (φ := .f32) (addf (F := Ideal) (s := S50000x128) (φ := .f32) (val_main_v27 (F := Ideal) (val_main_v22 (F := Ideal) x0 x1) x2) (val_main_v25 (F := Ideal) x3)) (val_main_v27 (F := Ideal) x0 x4)) (val_main_call0_v0 (F := Ideal)) := rfl

/-- THE FIRST LAYER: the reference's is the kernel's. -/
theorem layer0_eq : val_main_v29 (F := Ideal) x0 x1 x2 x3 x4 = sage0 x0 x1 x2 x3 x4 := by
  rw [stage0, mean0]
  unfold sage0
  exact (linRelu_eq_ref0 _ _ _ _ _).symm

/-- The reference's second neighbour mean is `meanAgg` of its first layer. -/
theorem mean1 : val_main_v48 (F := Ideal) x0 x1 x2 x3 x4
    = meanAgg (F := Ideal) (val_main_v29 (F := Ideal) x0 x1 x2 x3 x4) (srcOf x1) (dstOf x1) := rfl
theorem stage1 : val_main_v55 (F := Ideal) x0 x1 x2 x3 x4 x5 x6 x7
    = maximumf (F := Ideal) (s := S50000x128) (φ := .f32) (addf (F := Ideal) (s := S50000x128) (φ := .f32) (addf (F := Ideal) (s := S50000x128) (φ := .f32) (val_main_v27 (F := Ideal) (val_main_v48 (F := Ideal) x0 x1 x2 x3 x4) x5) (val_main_v25 (F := Ideal) x6))
        (val_main_v27 (F := Ideal) (val_main_v29 (F := Ideal) x0 x1 x2 x3 x4) x7)) (val_main_call1_v0 (F := Ideal)) := rfl

/-- THE SECOND LAYER. -/
theorem layer1_eq : val_main_v55 (F := Ideal) x0 x1 x2 x3 x4 x5 x6 x7 = sage1 x0 x1 x2 x3 x4 x5 x6 x7 := by
  rw [stage1, mean1, layer0_eq]
  unfold sage1
  exact (linRelu_eq_ref1 _ _ _ _ _).symm

/-- The reference's third neighbour mean is `meanAgg` of its second layer. -/
theorem mean2 : val_main_v74 (F := Ideal) x0 x1 x2 x3 x4 x5 x6 x7
    = meanAgg (F := Ideal) (val_main_v55 (F := Ideal) x0 x1 x2 x3 x4 x5 x6 x7) (srcOf x1) (dstOf x1) := rfl
theorem stage2 : val_main_v80 (F := Ideal) x0 x1 x2 x3 x4 x5 x6 x7 x8 x9 x10
    = addf (F := Ideal) (s := S50000x128) (φ := .f32) (addf (F := Ideal) (s := S50000x128) (φ := .f32) (val_main_v27 (F := Ideal) (val_main_v74 (F := Ideal) x0 x1 x2 x3 x4 x5 x6 x7) x8) (val_main_v25 (F := Ideal) x9))
        (val_main_v27 (F := Ideal) (val_main_v55 (F := Ideal) x0 x1 x2 x3 x4 x5 x6 x7) x10) := rfl

/-- THE RESULT: the reference's is the kernel's three layers composed. -/
theorem result_eq : val_main_v80 (F := Ideal) x0 x1 x2 x3 x4 x5 x6 x7 x8 x9 x10 = sage2 x0 x1 x2 x3 x4 x5 x6 x7 x8 x9 x10 := by
  rw [stage2, mean2, layer1_eq]
  unfold sage2
  exact (lin_eq_ref _ _ _ _ _).symm

end Cert.ReferenceIdeal.Hand

end
-- ==== Proof.lean ====
/-
  Three GraphSAGE layers, `h ← relu?(mean_in-neighbours(h)·Wl + b + h·Wr)`, on 50000 nodes and 800000 edges: a kernel
  program that computes each layer's neighbour mean with host gather / scatter-add operations and its linear step in a
  pallas_call over ten blocks of 5000 rows (bf16 operands on the matrix unit, f32 accumulation, bias, maximum with
  zero except in the last layer), against a jnp reference that does the linear step with two `dot_general`s.

  Over the extended reals the two are one function. The neighbour mean is the same chain of host operations in both
  programs (`meanAgg`, never opened). A cast to bf16 is the identity; a matrix-unit product into a zero accumulator
  and a `dot_general` are both the plain sum over the 128 contracted features; the kernel adds the two products and
  then the bias, the reference the first product, the bias, then the second product — the same value, addition of
  extended reals being commutative and associative; both rectify by the maximum with zero. The ten row blocks tile
  each layer's result array, so each call leaves the layer's whole-array function of the arrays it found, and the
  program's result is the three layers composed (`sage2`), which is what the reference's term is, layer by layer.
  No finiteness of the inputs is used; nothing was idealized beyond reading the program at the ideal values.
-/
import proofs.«147874_j67783173865548_1_alg».proof.Defs
import proofs.«147874_j67783173865548_1_alg».proof.Proof.Gen.Kernel
import proofs.«147874_j67783173865548_1_alg».proof.Proof.Gen.Kernel.Skeleton
import proofs.«147874_j67783173865548_1_alg».proof.Proof.Gen.Kernel.Launch
import proofs.«147874_j67783173865548_1_alg».proof.Proof.Gen.Kernel.Points
import proofs.«147874_j67783173865548_1_alg».proof.Proof.Gen.Kernel.Frame
import proofs.«147874_j67783173865548_1_alg».proof.Proof.Gen.KernelIdeal
import proofs.«147874_j67783173865548_1_alg».proof.Proof.Gen.KernelIdeal.Skeleton
import proofs.«147874_j67783173865548_1_alg».proof.Proof.Gen.KernelIdeal.Launch
import proofs.«147874_j67783173865548_1_alg».proof.Proof.Gen.KernelIdeal.Points
import proofs.«147874_j67783173865548_1_alg».proof.Proof.Gen.KernelIdeal.Frame
import proofs.«147874_j67783173865548_1_alg».proof.Proof.Gen.ReferenceIdeal
import proofs.«147874_j67783173865548_1_alg».proof.Proof.Gen.Pre_finite_inputs
import proofs.«147874_j67783173865548_1_alg».proof.Proof.Gen.ReferenceIdeal.Run
import proofs.«147874_j67783173865548_1_alg».proof.Proof.Gen.ReferenceIdeal.Read
import proofs.«147874_j67783173865548_1_alg».proof.Proof.RunValue
import proofs.«147874_j67783173865548_1_alg».proof.Proof.KChain
import proofs.«147874_j67783173865548_1_alg».proof.Proof.Ref
import Idealize.ShloMosaic.Adequacy
import Idealize.ShloMosaic.Init

noncomputable section

namespace Cert.Proof

open Idealize.ShloMosaic Idealize.ShloMosaic.TcCoe Idealize.SL.Sem

/-- The kernel's program runs, leaves its arguments as launched, and its result array holds the three layers composed,
    of the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v66)
        = Cert.KernelIdeal.Hand.sage2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun r h c => ⟨(h c).1.trans (Cert.KernelIdeal.Hand.W6_v66 m ρ c), (h c).2⟩)
    (Cert.KernelIdeal.Gen.run_result (F := Ideal) m ρ)

/-- The two idealized programs, from memories agreeing on the arguments, end with equal results: the kernel's at
    `sage2` of its arguments, the reference's at its composed term of its own, which is `sage2` of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v80_eq, Cert.ReferenceIdeal.Hand.result_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
